-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x2048, .f32⟩
  | .local _ .vmem, ⟨4, _⟩ => ⟨S1024x2048, .f32⟩
  | .local _ .vmem, ⟨5, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  let c0_2 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  h_S2048x256 : 0 < S2048x256.numel
  inb_S1024x2048_S1024x2048_0_0 : ∀ a, (![0, 0] : Fin 2 → Nat) a + S1024x2048.size a ≤ S1024x2048.size a
  h_S1024x2048 : 0 < S1024x2048.numel
  dot_S1024x256_S2048x256_S1024x2048_1_1_0_0_n_n_wf : DotDims.WF S1024x256 S2048x256 S1024x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The specification: softmax over the rows of `S`, then the product with `V` transposed,
  as ONE function of the two argument arrays, index by index, on the extended reals.

  For a row `x : Fin 256 → EReal`:
    rowMax x      = the maximum of `x` over its 256 entries, folded from -∞;
    rowExp x d    = exp (x d - rowMax x);
    rowSoftmax x d = rowExp x d / ∑ k, rowExp x k;
  and the result at `(n, j)` is  ∑ k, rowSoftmax (S n ·) k * V j k.
  Nothing here is evaluated: -∞ stays the word both programs spell, division is the
  ideal instance's division and the exponential its exponential.
-/
import Idealize.ShloMosaic.PureOps.Ideal
import Idealize.ShloMosaic.PureOps.Ideal.Laws
import Idealize.ShloMosaic.Lib.ValueIdx

noncomputable section

open scoped BigOperators

namespace Cert.SoftmaxDot

open Idealize.ShloMosaic Idealize.ShloMosaic.ValueIdx

/-- -∞, as the word both programs start their row maximum from. -/
abbrev negInf : EReal := Ideal.ofBits .f32 0xFF800000#32

/-- That word is the bottom of the extended reals, so a maximum against it changes nothing. -/
theorem negInf_eq_bot : negInf = ⊥ := by
  simp [negInf, Ideal.ofBits, Ideal.ieee]

theorem max_negInf (x : EReal) : max negInf x = x := by
  rw [negInf_eq_bot]; exact max_bot_left x

/-- The maximum of a row. -/
def rowMax (x : Fin 256 → EReal) : EReal :=
  (Finset.univ : Finset (Fin 256)).fold max negInf x

/-- A row's entries shifted by its maximum and exponentiated. -/
def rowExp (x : Fin 256 → EReal) (d : Fin 256) : EReal :=
  Ideal.exp (x d - rowMax x)

/-- The softmax of a row. -/
def rowSoftmax (x : Fin 256 → EReal) (d : Fin 256) : EReal :=
  Ideal.div (rowExp x d) (∑ k : Fin 256, rowExp x k)

/-- Row `n` of an array of 256-entry rows. -/
abbrev rowOf {N : Nat} (A : (⟨2, ![N, 256]⟩ : Shape).Idx → EReal) (n : Fin N) : Fin 256 → EReal :=
  fun d => A (ix2 n d)

/-- The whole result: entry `(n, j)` pairs the softmax of row `n` of `S` with row `j` of `V`. -/
def result (S V : (⟨2, ![8192, 256]⟩ : Shape).Idx → EReal) : (⟨2, ![8192, 8192]⟩ : Shape).Idx → EReal :=
  fun i => ∑ k : Fin 256, rowSoftmax (rowOf S (i 0)) k * V (ix2 (i 1) k)

end Cert.SoftmaxDot

end
-- ==== Proof.RefValue.lean ====
/-
  The reference computes the specification.

  Stage by stage the reference's program is: the row maximum of `S` folded from -∞ (and
  once more against -∞, which changes nothing), the entries shifted by it and exponentiated,
  their row sum from zero, the quotient, and the product of that with `V` contracted over the
  256 columns of both. Read at one index each stage is the corresponding piece of
  `Cert.SoftmaxDot`: `rowMax`, `rowExp`, the sum, `rowSoftmax`, `result`.
-/
import proofs.«417214_j54812372631768_3_alg».proof.Proof.Gen.ReferenceIdeal.Read
import proofs.«417214_j54812372631768_3_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.SoftmaxDot
open Idealize.ShloMosaic Idealize.ShloMosaic.ValueIdx

/-- The row an entry of the reduced axis is inserted into: row `n`, column `k`. -/
theorem lift_row (hR : S8192x256.Reduces [1] S8192) (n : Fin 8192) (k : Fin 256) :
    hR.lift (ix1 n) k = ix2 n k :=
  funext fun a => Fin.ext (by match a with | ⟨0, _⟩ => rfl | ⟨1, _⟩ => rfl)

/-- The reference's row maximum, a fold of `max` from -∞ over the row's 256 entries. -/
theorem rowmax_eq (x0 : (⟨S8192x256, .f32⟩ : BufTy).Contents (Elt Ideal)) (n : Fin 8192) :
    val_main_v0 (F := Ideal) x0 (ix1 n) = rowMax (rowOf x0 n) := by
  have hR : S8192x256.Reduces [1] S8192 := by decide
  unfold val_main_v0
  refine (Host.reduce_eq_fold_single (α := Ideal .f32) (FloatOps.maximumf (F := Ideal) (φ := .f32)) x0
    (val_main_cst (F := Ideal)) reducesTo_S8192x256_S8192_d1 hR h_S_ (ix1 n)).trans ?_
  show (Finset.univ : Finset (Fin 256)).fold max negInf (fun k => x0 (hR.lift (ix1 n) k)) = _
  unfold rowMax
  exact congrArg (fun f => (Finset.univ : Finset (Fin 256)).fold max negInf f)
    (funext fun k => congrArg x0 (lift_row hR n k))

/-- The shifted exponentials of the reference are `rowExp`: the second maximum against -∞ is the identity. -/
theorem exp_eq (x0 : (⟨S8192x256, .f32⟩ : BufTy).Contents (Elt Ideal)) (n : Fin 8192) (k : Fin 256) :
    val_main_v6 (F := Ideal) x0 (ix2 n k) = rowExp (rowOf x0 n) k := by
  have e : idx_main_v3 (idx_main_v4 (ix2 n k)) = ix1 n :=
    funext fun a => Fin.ext (by match a with | ⟨0, _⟩ => rfl)
  rw [val_main_v6_apply, val_main_v5_apply, val_main_v4_apply, val_main_v3_apply, val_main_v2_apply,
    val_main_v1_apply, val_main_cst_0_apply, e, rowmax_eq]
  show Ideal.exp (x0 (ix2 n k) - max negInf (rowMax (rowOf x0 n))) = _
  rw [max_negInf]
  rfl

/-- The reference's row sum of them, from zero. -/
theorem sum_eq (x0 : (⟨S8192x256, .f32⟩ : BufTy).Contents (Elt Ideal)) (n : Fin 8192) :
    val_main_v7 (F := Ideal) x0 (ix1 n) = ∑ k : Fin 256, rowExp (rowOf x0 n) k := by
  rw [val_main_v7_apply, val_main_cst_1_apply]
  show Ideal.ofBits .f32 0x00000000#32 + _ = _
  rw [Ideal.ofBits_zero_f32, zero_add]
  refine Finset.sum_congr rfl fun k _ => ?_
  have e : idx_main_v7 (ix1 n) k = ix2 n k :=
    funext fun a => Fin.ext (by match a with | ⟨0, _⟩ => rfl | ⟨1, _⟩ => rfl)
  rw [e, exp_eq]

/-- The reference's quotient is the row's softmax. -/
theorem softmax_eq (x0 : (⟨S8192x256, .f32⟩ : BufTy).Contents (Elt Ideal)) (n : Fin 8192) (k : Fin 256) :
    val_main_v10 (F := Ideal) x0 (ix2 n k) = rowSoftmax (rowOf x0 n) k := by
  have e : idx_main_v8 (idx_main_v9 (ix2 n k)) = ix1 n :=
    funext fun a => Fin.ext (by match a with | ⟨0, _⟩ => rfl)
  rw [val_main_v10_apply, val_main_v9_apply, val_main_v8_apply, e, sum_eq, exp_eq]
  rfl

/-- The reference's result is the specification, as a whole array. -/
theorem result_eq (x0 x1 : (⟨S8192x256, .f32⟩ : BufTy).Contents (Elt Ideal)) :
    val_main_v11 (F := Ideal) x0 x1 = result x0 x1 := by
  funext i
  obtain ⟨p, q, rfl⟩ : ∃ (p q : Fin 8192), i = ix2 p q := ⟨i 0, i 1, eq_ix2 i⟩
  rw [val_main_v11_apply]
  show _ = ∑ k : Fin 256, rowSoftmax (rowOf x0 p) k * x1 (ix2 q k)
  refine Finset.sum_congr rfl fun k _ => ?_
  have el : lidx_main_v11 (ix2 p q) k = ix2 p k :=
    funext fun a => Fin.ext (by match a with | ⟨0, _⟩ => rfl | ⟨1, _⟩ => rfl)
  have er : ridx_main_v11 (ix2 p q) k = ix2 q k :=
    funext fun a => Fin.ext (by match a with | ⟨0, _⟩ => rfl | ⟨1, _⟩ => rfl)
  rw [el, er, softmax_eq]

end Cert.ReferenceIdeal.RefValue

end
-- ==== Proof.KernelBody.lean ====
/-
  What one run of the kernel body leaves, case by case, as values of its payloads.

  At the first column block of a row block the body stores the softmax of the loaded block of `S`
  into its cache (the first payload of that block), reads it back, and stores into the output block
  the product of the cache with the 2048 rows of `V` that the column block names. At the other
  column blocks it only reads the cache, which holds what the point before left, and stores the
  same product. The rows of `V` are read out of the whole of `V` at a row offset the column block
  computes; `vrows` names that load.
-/
import proofs.«417214_j54812372631768_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The 2048 rows of `V` the body loads at grid coordinates `i`, out of the whole of `V`. -/
abbrev vrows (i : grid0.Coords) (x1 : Vec F S8192x256 .f32) : Vec F S2048x256 .f32 :=
  View.ld x1 (Rect.unit (s := S8192x256) (k0_off1 i) S2048x256.size (k0_off1_inb i))

/-- First column block: the cache ends at the softmax payload of the loaded block of `S`. -/
theorem cache_A (c : Dev nD) (i : grid0.Coords) (a2 : Memref sig .tc .vmem S1024x256 .f32) (h2 : a2.IsWhole)
    (a3 : Memref sig .tc .vmem S8192x256 .f32) (h3 : a3.IsWhole) (a4 : Memref sig .tc .vmem S1024x2048 .f32) (h4 : a4.IsWhole)
    (a5 : Memref sig .tc .vmem S1024x256 .bf16) (h5 : a5.IsWhole) (hc : cond0_0 i)
    (x0 : Vec F S1024x256 .f32) (x1 : Vec F S8192x256 .f32) :
    sout0_A_0 c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h2.read_unread, View.ld_unit_zero (S := S1024x256) hz]

/-- First column block: the output block ends at the product of that cache with the loaded rows of `V`. -/
theorem out_A (c : Dev nD) (i : grid0.Coords) (a2 : Memref sig .tc .vmem S1024x256 .f32) (h2 : a2.IsWhole)
    (a3 : Memref sig .tc .vmem S8192x256 .f32) (h3 : a3.IsWhole) (a4 : Memref sig .tc .vmem S1024x2048 .f32) (h4 : a4.IsWhole)
    (a5 : Memref sig .tc .vmem S1024x256 .bf16) (h5 : a5.IsWhole) (hc : cond0_0 i)
    (x0 : Vec F S1024x256 .f32) (x1 : Vec F S8192x256 .f32) :
    out0_A_2 c i a2 h2 a3 h3 a4 h4 a5 h5 hc x0 x1 = k0_pay2 (k0_pay1 x0) (vrows i x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S1024x256) hz,
    View.readCov_unit_zero (S := S1024x256) _ hz]
  rfl

/-- The other column blocks: the output block ends at the product of the cache as found with the loaded rows of `V`. -/
theorem out_B (c : Dev nD) (i : grid0.Coords) (a2 : Memref sig .tc .vmem S1024x256 .f32) (h2 : a2.IsWhole)
    (a3 : Memref sig .tc .vmem S8192x256 .f32) (h3 : a3.IsWhole) (a4 : Memref sig .tc .vmem S1024x2048 .f32) (h4 : a4.IsWhole)
    (a5 : Memref sig .tc .vmem S1024x256 .bf16) (h5 : a5.IsWhole) (hc : ¬cond0_0 i)
    (x0 : Vec F S1024x256 .f32) (x1 : Vec F S8192x256 .f32) (xs0 : Vec F S1024x256 .bf16) :
    out0_B_2 c i a2 h2 a3 h3 a4 h4 a5 h5 hc x0 x1 xs0 = k0_pay2 xs0 (vrows i x1) := by
  unfold out0_B_2
  rw [View.read_writes_eq_canon _ _ _ (cover0_B_2 c i a2 h2 a3 h3 a4 h4 a5 h5 hc x0 x1 xs0)]
  unfold kernelRun0_B
  dsimp only
  rw [View.canon_unit_zero hz]
  simp only [View.readAt_eq_ld, h3.read_unread, h5.read_unread, View.ld_unit_zero (S := S1024x256) hz]

end Cert.KernelIdeal.Body

end
-- ==== Proof.LibColumn.lean ====
/-
  A column vector made from a vector and spread over the columns of a matrix, read at an index.

  `keepdims` reductions leave a vector `[a]` that is first given a trailing unit axis, `[a, 1]`,
  and then broadcast along it to `[a, b]`. Read at `(p, c)` the result is the vector at `p`:
  the shape cast keeps the row-major position (`p * 1 + 0 = p`), and the broadcast reads a
  unit axis at `0` whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector as a column, spread over `b` columns, reads at `(p, c)` the vector at `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx

end
-- ==== Proof.KernelPayload.lean ====
/-
  The kernel body's two payloads, read at one index at the ideal instance.

  The first payload is what the body stores into its cache at the first column block of a row
  block: from the loaded block `x` of `S` (1024 rows of 256 entries) the row maximum from -∞,
  the shifted exponentials, their row sum from zero and the quotient; the narrowing to bf16 and
  the cast to the same shape are the identity on extended reals. Entry `(r, k)` is the softmax of
  row `r` of the block at column `k`.

  The second payload is the product, into a zero accumulator, of a cached block `p` with 2048 rows
  of `V`, contracting the 256 columns of both: entry `(r, q)` is `∑ k, p (r, k) * v (q, k)`.
-/
import proofs.«417214_j54812372631768_3_alg».proof.Proof.Gen.KernelIdeal.Skeleton
import proofs.«417214_j54812372631768_3_alg».proof.Proof.Spec
import proofs.«417214_j54812372631768_3_alg».proof.Proof.LibColumn
import Idealize.ShloMosaic.PureOps.Reduce
import Idealize.ShloMosaic.PureOps.Ideal.Laws
import Idealize.ShloMosaic.Lib.Pipeline.Value
import Idealize.ShloMosaic.Lib.ValueIdx

noncomputable section

open scoped BigOperators

namespace Cert.KernelIdeal.Payload

open Cert.KernelIdeal Cert.KernelIdeal.Gen Cert.SoftmaxDot
open Idealize.ShloMosaic Idealize.ShloMosaic.ValueIdx

/-- Row `r` of a block of 256-entry rows. -/
abbrev blockRowOf (x : FVec Ideal S1024x256 .f32) (r : Fin 1024) : Fin 256 → EReal :=
  fun d => x (ix2 r d)

/-- The entry of the reduced axis inserted into row `r`: `(r, k)`. -/
theorem lift_row (hR : S1024x256.Reduces [1] S1024) (r : Fin 1024) (k : Fin 256) :
    hR.lift (ix1 r) k = ix2 r k :=
  funext fun a => Fin.ext (by match a with | ⟨0, _⟩ => rfl | ⟨1, _⟩ => rfl)

/-- The block's row maximum from -∞ is the row's maximum. -/
theorem blockmax_apply (x : FVec Ideal S1024x256 .f32) (hR : S1024x256.Reduces [1] S1024) (hφ : FKind.Formats .f32)
    (hacc : (0xFF800000#32 : BitVec 32) = FKind.maximumf.neutral .f32 hφ) (r : Fin 1024) :
    multiReduction .maximumf [1] S1024 x 0xFF800000#32 hR hφ hacc (ix1 r) = rowMax (blockRowOf x r) := by
  refine (Ideal.multiReduction_maximumf_single x _ hR hφ hacc (ix1 r)).trans ?_
  show (Finset.univ : Finset (Fin 256)).fold max negInf (fun k => x (hR.lift (ix1 r) k)) = _
  unfold rowMax
  exact congrArg (fun f => (Finset.univ : Finset (Fin 256)).fold max negInf f)
    (funext fun k => congrArg x (lift_row hR r k))

/-- The block's entries shifted by their row maximum and exponentiated. -/
def shifted (x : FVec Ideal S1024x256 .f32) (hR : S1024x256.Reduces [1] S1024) (hφ : FKind.Formats .f32)
    (hacc : (0xFF800000#32 : BitVec 32) = FKind.maximumf.neutral .f32 hφ) (h1 : S1024.ShapeCasts S1024x1)
    (h2 : S1024x1.Broadcasts S1024x256) : FVec Ideal S1024x256 .f32 :=
  exp (subf x (broadcastTo S1024x256 (shapeCast S1024x1 (multiReduction .maximumf [1] S1024 x 0xFF800000#32 hR hφ hacc) h1) h2))

theorem shifted_apply (x : FVec Ideal S1024x256 .f32) (hR : S1024x256.Reduces [1] S1024) (hφ : FKind.Formats .f32)
    (hacc : (0xFF800000#32 : BitVec 32) = FKind.maximumf.neutral .f32 hφ) (h1 : S1024.ShapeCasts S1024x1)
    (h2 : S1024x1.Broadcasts S1024x256) (r : Fin 1024) (k : Fin 256) :
    shifted x hR hφ hacc h1 h2 (ix2 r k) = rowExp (blockRowOf x r) k := by
  show Ideal.exp (x (ix2 r k) - broadcastTo S1024x256 (shapeCast S1024x1 (multiReduction .maximumf [1] S1024 x 0xFF800000#32 hR hφ hacc) h1) h2 (ix2 r k)) = _
  rw [column_spread_apply, blockmax_apply]
  rfl

/-- The first payload at `(r, k)`: the softmax of row `r` of the block, at column `k`. -/
theorem pay1_apply (x : Vec Ideal S1024x256 .f32) (r : Fin 1024) (k : Fin 256) :
    k0_pay1 (F := Ideal) x (ix2 r k) = rowSoftmax (blockRowOf x r) k := by
  unfold k0_pay1
  rw [shapeCast_self]
  show Ideal.div (shifted x _ _ _ _ _ (ix2 r k))
      (broadcastTo S1024x256 (shapeCast S1024x1 (multiReduction .add [1] S1024 (shifted x _ _ _ _ _) 0x00000000#32 _ _ _) _) _ (ix2 r k)) = _
  rw [column_spread_apply]
  unfold rowSoftmax
  refine congrArg₂ Ideal.div (shifted_apply x _ _ _ _ _ r k) ?_
  refine (Ideal.multiReduction_add_single _ _ _ _ _ (ix1 r)).trans ?_
  refine Finset.sum_congr rfl fun k' _ => ?_
  exact (congrArg _ (lift_row _ r k')).trans (shifted_apply x _ _ _ _ _ r k')

/-- The contraction index of the body's product is its one coordinate, a column of both operands. -/
abbrev dotD : DotDims S1024x256 S2048x256 S1024x2048 := dot_S1024x256_S2048x256_S1024x2048_1_1_0_0_n_n

theorem lhs_0 (i : S1024x2048.Idx) (q : dotD.contr.Idx) : (dotD.lhsIdx i q 0).val = (i 0).val := by
  unfold DotDims.lhsIdx
  rw [dif_neg (show ¬(0 : Fin S1024x256.rank) ∈ dotD.lhsBatch by decide), dif_pos (show (0 : Fin S1024x256.rank) ∈ dotD.lhsNonContracting by decide)]
  rfl
theorem lhs_1 (i : S1024x2048.Idx) (q : dotD.contr.Idx) : (dotD.lhsIdx i q 1).val = (q ⟨0, by decide⟩).val :=
  dotD.lhsIdx_val_of_single rfl i q
theorem rhs_0 (i : S1024x2048.Idx) (q : dotD.contr.Idx) : (dotD.rhsIdx i q 0).val = (i 1).val := by
  unfold DotDims.rhsIdx
  rw [dif_neg (show ¬(0 : Fin S2048x256.rank) ∈ dotD.rhsBatch by decide), dif_pos (show (0 : Fin S2048x256.rank) ∈ dotD.rhsNonContracting by decide)]
  rfl
theorem rhs_1 (i : S1024x2048.Idx) (q : dotD.contr.Idx) : (dotD.rhsIdx i q 1).val = (q ⟨0, by decide⟩).val :=
  dotD.rhsIdx_val_of_single rfl i q

/-- The second payload at `(r, q)`: the cached row `r` against row `q` of the loaded rows of `V`. -/
theorem pay2_apply (p : Vec Ideal S1024x256 .bf16) (v : Vec Ideal S2048x256 .f32) (r : Fin 1024) (q : Fin 2048) :
    k0_pay2 (F := Ideal) p v (ix2 r q) = ∑ k : Fin 256, p (ix2 r k) * v (ix2 q k) := by
  unfold k0_pay2
  refine (Ideal.matmul_constant_zero_apply dotD none p (truncf .bf16 v bitsLt_bf16_f32) (ix2 r q)).trans ?_
  rw [← Equiv.sum_comp (contrEquiv1 dotD 256 rfl rfl).symm]
  refine Finset.sum_congr rfl fun k _ => ?_
  have hk := contrEquiv1_symm_val dotD 256 rfl rfl k
  have el : dotD.lhsIdx (ix2 r q) ((contrEquiv1 dotD 256 rfl rfl).symm k) = ix2 r k := funext fun a => Fin.ext (by
    match a with
    | ⟨0, _⟩ => exact lhs_0 _ _
    | ⟨1, _⟩ => exact (lhs_1 _ _).trans hk)
  have er : dotD.rhsIdx (ix2 r q) ((contrEquiv1 dotD 256 rfl rfl).symm k) = ix2 q k := funext fun a => Fin.ext (by
    match a with
    | ⟨0, _⟩ => exact rhs_0 _ _
    | ⟨1, _⟩ => exact (rhs_1 _ _).trans hk)
  rw [el, er]
  rfl

end Cert.KernelIdeal.Payload

end
-- ==== Proof.KernelValue.lean ====
/-
  The kernel's result array is the specification.

  The grid has 8 row blocks of 1024 rows and, inside each, 4 column blocks of 2048 columns; point
  `t` is row block `t / 4` and column block `t % 4`. The cache the body carries between points
  holds, after point `t`, the softmax of rows `1024 (t / 4) + r` of `S`: the first column block of
  a row block stores it and the other three leave it alone. The output block of point `t` is the
  product of that cache with rows `2048 (t % 4) + q` of `V`, so its entry `(r, q)` is the
  specification at `(1024 (t / 4) + r, 2048 (t % 4) + q)`, which is where the block lies in the
  result array; the 32 blocks tile the array.
-/
import proofs.«417214_j54812372631768_3_alg».proof.Proof.Gen.KernelIdeal.Value
import proofs.«417214_j54812372631768_3_alg».proof.Proof.KernelBody
import proofs.«417214_j54812372631768_3_alg».proof.Proof.KernelPayload
import proofs.«417214_j54812372631768_3_alg».proof.Proof.Spec
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Body Cert.KernelIdeal.Payload Cert.SoftmaxDot
open Idealize.ShloMosaic.ValueIdx

variable (m : (ℓ : Loc nD τ sig) → Buf (Elt Ideal) ℓ) (ρ : Dev nD → PrngReg)

/-! ## Where a block lies -/

/-- Row `r` of row block `b`, as a row of the arrays (the remainder is vacuous for `b < 8`). -/
def blockRow (b : ℕ) (r : Fin 1024) : Fin 8192 := ⟨(1024 * b + r.val) % 8192, Nat.mod_lt _ (by decide)⟩

/-- Column `q` of column block `b`, a row of `V` (the remainder is vacuous for `b < 4`). -/
def blockCol (b : ℕ) (q : Fin 2048) : Fin 8192 := ⟨(2048 * b + q.val) % 8192, Nat.mod_lt _ (by decide)⟩

/-- The printed index maps and the offset of the load of `V`, decided over the 32 points. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = t.val % 4
    ∧ k0_off1 (grid0.coords t) (0 : Fin 2) = 2048 * (t.val % 4) ∧ k0_off1 (grid0.coords t) (1 : Fin 2) = 0 :=
  (by decide +kernel : ∀ t : Fin grid0.N, _)

/-- The two argument arrays, as the region finds them. -/
abbrev sArr (c : Dev nD) : Vec Ideal S8192x256 .f32 := m ((c : Thread nD τ).loc main_arg0)
abbrev vArr (c : Dev nD) : Vec Ideal S8192x256 .f32 := m ((c : Thread nD τ).loc main_arg1)

/-- The block of `S` and the block of `V` (all of it) that point `t` finds staged. -/
abbrev sblk (c : Dev nD) (t : Fin cfg0.N) : Vec Ideal S1024x256 .f32 := iblk m c 0 t
abbrev vblk (c : Dev nD) (t : Fin cfg0.N) : Vec Ideal S8192x256 .f32 := iblk m c 1 t

/-- The staged block of `S` at `(r, k)` is `S` at row `1024 (t / 4) + r`. -/
theorem sblk_apply (c : Dev nD) (t : Fin cfg0.N) (r : Fin 1024) (k : Fin 256) :
    sblk m c t (ix2 r k) = sArr m c (ix2 (blockRow (t.val / 4) r) k) := by
  obtain ⟨e0, e1, -⟩ := idx_facts t
  have hN : t.val < 32 := lt_of_lt_of_eq t.isLt (show cfg0.N = 32 from N_0)
  show V m c main_arg0 (((cfg0.win 0).blk t).view.emb (ix2 r k)) = _
  refine congrArg (m ((c : Thread nD τ).loc main_arg0)) (funext fun a => Fin.ext ?_)
  match a with
  | ⟨0, _⟩ =>
    show win0_0.index t (0 : Fin 2) * 1024 + 1 * r.val = (1024 * (t.val / 4) + r.val) % 8192
    have := r.isLt; omega
  | ⟨1, _⟩ =>
    show win0_0.index t (1 : Fin 2) * 256 + 1 * k.val = k.val
    omega

/-- The staged block of `V` is all of `V`. -/
theorem vblk_apply (c : Dev nD) (t : Fin cfg0.N) (a : Fin 8192) (k : Fin 256) :
    vblk m c t (ix2 a k) = vArr m c (ix2 a k) := by
  obtain ⟨-, -, e2, e3, -⟩ := idx_facts t
  show V m c main_arg1 (((cfg0.win 1).blk t).view.emb (ix2 a k)) = _
  refine congrArg (m ((c : Thread nD τ).loc main_arg1)) (funext fun b => Fin.ext ?_)
  match b with
  | ⟨0, _⟩ =>
    show win0_1.index t (0 : Fin 2) * 8192 + 1 * a.val = a.val
    omega
  | ⟨1, _⟩ =>
    show win0_1.index t (1 : Fin 2) * 256 + 1 * k.val = k.val
    omega

/-- The rows of `V` the body loads at point `t` are rows `2048 (t % 4) + q`. -/
theorem vrows_apply (t : Fin cfg0.N) (x1 : Vec Ideal S8192x256 .f32) (q : Fin 2048) (k : Fin 256) :
    vrows (grid0.coords t) x1 (ix2 q k) = x1 (ix2 (blockCol (t.val % 4) q) k) := by
  obtain ⟨-, -, -, -, -, -, o0, o1⟩ := idx_facts t
  show x1 ((Rect.unit (s := S8192x256) (k0_off1 (grid0.coords t)) S2048x256.size (k0_off1_inb (grid0.coords t))).idx (ix2 q k)) = _
  refine congrArg x1 (funext fun a => Fin.ext ?_)
  match a with
  | ⟨0, _⟩ =>
    show k0_off1 (grid0.coords t) (0 : Fin 2) + 1 * q.val = (2048 * (t.val % 4) + q.val) % 8192
    have := q.isLt; omega
  | ⟨1, _⟩ =>
    show k0_off1 (grid0.coords t) (1 : Fin 2) + 1 * k.val = k.val
    omega

/-! ## The cache and the output block, point by point -/

/-- The softmax of row block `b` of `S`: what the cache holds during that row block. -/
def cacheOf (c : Dev nD) (b : ℕ) : Vec Ideal S1024x256 .bf16 :=
  fun y => rowSoftmax (rowOf (sArr m c) (blockRow b (y 0))) (y 1)

/-- The first payload of the staged block of `S` is that softmax. -/
theorem pay1_block (c : Dev nD) (t : Fin cfg0.N) : k0_pay1 (F := Ideal) (sblk m c t) = cacheOf m c (t.val / 4) := by
  funext y
  obtain ⟨r, k, rfl⟩ : ∃ (r : Fin 1024) (k : Fin 256), y = ix2 r k := ⟨y 0, y 1, eq_ix2 y⟩
  refine (pay1_apply (sblk m c t) r k).trans ?_
  show rowSoftmax (blockRowOf (sblk m c t) r) k = rowSoftmax (rowOf (sArr m c) (blockRow (t.val / 4) r)) k
  exact congrArg (fun x => rowSoftmax x k) (funext fun d => sblk_apply m c t r d)

/-- The output block of point `t`: the cache of its row block against its rows of `V`. -/
def outBlock (c : Dev nD) (t : Fin cfg0.N) : Vec Ideal S1024x2048 .f32 :=
  k0_pay2 (F := Ideal) (cacheOf m c (t.val / 4)) (vrows (grid0.coords t) (vblk m c t))

/-- After every point the output's staging buffer holds that point's output block and the cache the softmax of
    the point's row block: at a first column block by the body's stores, at the others because the body leaves
    the cache as the point before left it, in the same row block. -/
theorem outs_eq (c : Dev nD) : ∀ (n : ℕ) (h : n < cfg0.N),
    outsAt0 m c n h = (outBlock m c ⟨n, h⟩, cacheOf m c (n / 4))
  | 0, h => by
    rw [outsAt0_A m c ⟨0, h⟩ rfl]
    refine Prod.ext ?_ ?_
    · dsimp only
      refine (out_A (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) scM0_0 (Memref.isWhole_whole _) ((hcond0_0 ⟨0, h⟩).mpr rfl)
        (iblk m c 0 ⟨0, h⟩) (iblk m c 1 ⟨0, h⟩)).trans ?_
      exact congrArg (fun p => k0_pay2 (F := Ideal) p (vrows (grid0.coords ⟨0, h⟩) (vblk m c ⟨0, h⟩))) (pay1_block m c ⟨0, h⟩)
    · dsimp only
      refine (cache_A (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) scM0_0 (Memref.isWhole_whole _) ((hcond0_0 ⟨0, h⟩).mpr rfl)
        (iblk m c 0 ⟨0, h⟩) (iblk m c 1 ⟨0, h⟩)).trans ?_
      exact pay1_block m c ⟨0, h⟩
  | n + 1, h => by
    by_cases h0 : (n + 1) % 4 = 0
    · rw [outsAt0_A m c ⟨n + 1, h⟩ h0]
      refine Prod.ext ?_ ?_
      · dsimp only
        refine (out_A (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) ((hcond0_0 ⟨n + 1, h⟩).mpr h0)
          (iblk m c 0 ⟨n + 1, h⟩) (iblk m c 1 ⟨n + 1, h⟩)).trans ?_
        exact congrArg (fun p => k0_pay2 (F := Ideal) p (vrows (grid0.coords ⟨n + 1, h⟩) (vblk m c ⟨n + 1, h⟩))) (pay1_block m c ⟨n + 1, h⟩)
      · dsimp only
        refine (cache_A (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) ((hcond0_0 ⟨n + 1, h⟩).mpr h0)
          (iblk m c 0 ⟨n + 1, h⟩) (iblk m c 1 ⟨n + 1, h⟩)).trans ?_
        exact pay1_block m c ⟨n + 1, h⟩
    · have ih : (outsAt0 m c n (Nat.lt_of_succ_lt h)).2 = cacheOf m c ((n + 1) / 4) := by
        rw [outs_eq c n (Nat.lt_of_succ_lt h)]
        show cacheOf m c (n / 4) = cacheOf m c ((n + 1) / 4)
        exact congrArg (cacheOf m c) (by omega)
      rw [outsAt0_B m c ⟨n + 1, h⟩ h0]
      refine Prod.ext ?_ ?_
      · dsimp only
        refine (out_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh))
          (iblk m c 0 ⟨n + 1, h⟩) (iblk m c 1 ⟨n + 1, h⟩) (outsAt0 m c n (Nat.lt_of_succ_lt h)).2).trans ?_
        exact congrArg (fun p => k0_pay2 (F := Ideal) p (vrows (grid0.coords ⟨n + 1, h⟩) (vblk m c ⟨n + 1, h⟩))) ih
      · dsimp only
        exact ih

/-- The output block at `(r, q)` is the specification at row `1024 (t / 4) + r`, column `2048 (t % 4) + q`. -/
theorem outBlock_apply (c : Dev nD) (t : Fin cfg0.N) (r : Fin 1024) (q : Fin 2048) :
    outBlock m c t (ix2 r q) = result (sArr m c) (vArr m c) (ix2 (blockRow (t.val / 4) r) (blockCol (t.val % 4) q)) := by
  unfold outBlock
  refine (pay2_apply (cacheOf m c (t.val / 4)) (vrows (grid0.coords t) (vblk m c t)) r q).trans ?_
  show _ = ∑ k : Fin 256, rowSoftmax (rowOf (sArr m c) (blockRow (t.val / 4) r)) k * vArr m c (ix2 (blockCol (t.val % 4) q) k)
  refine Finset.sum_congr rfl fun k _ => ?_
  rw [vrows_apply, vblk_apply]
  rfl

/-! ## From the blocks to the array -/

/-- What point `t` writes back is block `t` of the specification. -/
theorem flushed_eq (c : Dev nD) (t : Fin cfg0.N) :
    (dats m 0 c).flushed 2 t = ((cfg0.win 2).blk t).view.read (Elt Ideal) (result (sArr m c) (vArr m c)) := by
  obtain ⟨-, -, -, -, e4, e5, -⟩ := idx_facts t
  have hN : t.val < 32 := lt_of_lt_of_eq t.isLt (show cfg0.N = 32 from N_0)
  rw [Cert.KernelIdeal.Value.flushed2, outs_eq m c t.val t.isLt]
  funext y
  obtain ⟨r, q, rfl⟩ : ∃ (r : Fin 1024) (q : Fin 2048), y = ix2 r q := ⟨y 0, y 1, eq_ix2 y⟩
  show outBlock m c t (ix2 r q) = result (sArr m c) (vArr m c) (((cfg0.win 2).blk t).view.emb (ix2 r q))
  rw [outBlock_apply]
  refine congrArg (result (sArr m c) (vArr m c)) (funext fun a => Fin.ext ?_)
  match a with
  | ⟨0, _⟩ =>
    show (1024 * (t.val / 4) + r.val) % 8192 = win0_2.index t (0 : Fin 2) * 1024 + 1 * r.val
    have := r.isLt; omega
  | ⟨1, _⟩ =>
    show (2048 * (t.val % 4) + q.val) % 8192 = win0_2.index t (1 : Fin 2) * 2048 + 1 * q.val
    have := q.isLt; omega

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- Every entry of the result array lies in the block of the point its row block and column block name. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 32 := N_0
  let t : Fin cfg0.N := ⟨4 * ((i 0).val / 1024) + (i 1).val / 2048, by omega⟩
  obtain ⟨-, -, -, -, e4, e5, -⟩ := idx_facts t
  have tv : t.val = 4 * ((i 0).val / 1024) + (i 1).val / 2048 := rfl
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- So the result array ends holding the specification. -/
theorem final (c : Dev nD) : (dats m 0 c).arrAt 2 cfg0.N = result (sArr m c) (vArr m c) :=
  (dats m 0 c).arrAt_eq_of_cover 2 (result (sArr m c) (vArr m c)) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result (sArr m c) (vArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.lean ====
/-
  Softmax over the rows of `S`, times `V` transposed: the kernel against its reference.

  Both programs compute, for `S, V : f32[8192, 256]`, the array
    O (n, j) = ∑ k, softmax (S n ·) k * V (j, k)
  with the softmax of a row taken as exp (x - max x) / ∑ exp (x - max x), the maximum folded from -∞.
  The kernel walks 8 row blocks of 1024 rows by 4 column blocks of 2048 columns; at the first column
  block of a row block it computes the softmax of the block of `S` once into a cache and reuses it for
  the other three, each point multiplying the cache by its 2048 rows of `V`. The reference computes
  the same softmax on whole arrays (with one more maximum against -∞, the identity) and one
  contraction. Over the extended reals the narrowing of the cache and of the rows of `V` to bf16 is
  the identity, both divisions are the ideal instance's division, both exponentials its exponential,
  and each contraction is the plain sum over the 256 columns: the two results are one function of the
  arguments (`Cert.SoftmaxDot.result`), entry by entry, with no use of finiteness.

  The kernel's side: the body's payloads at an index (KernelPayload), what each case of the body leaves
  (KernelBody), the cache and the output block point by point and the 32 blocks tiling the result
  (KernelValue). The reference's side: its stages read one at a time (RefValue). The frames of the two
  kernel programs are their generated frames; the reference's frame is its generated run with the
  result dropped; the idealization rewrote nothing.
-/
import proofs.«417214_j54812372631768_3_alg».proof.Defs
import proofs.«417214_j54812372631768_3_alg».proof.Proof.Gen.Kernel
import proofs.«417214_j54812372631768_3_alg».proof.Proof.Gen.Kernel.Skeleton
import proofs.«417214_j54812372631768_3_alg».proof.Proof.Gen.Kernel.Launch
import proofs.«417214_j54812372631768_3_alg».proof.Proof.Gen.Kernel.Points
import proofs.«417214_j54812372631768_3_alg».proof.Proof.Gen.Kernel.Frame
import proofs.«417214_j54812372631768_3_alg».proof.Proof.Gen.KernelIdeal
import proofs.«417214_j54812372631768_3_alg».proof.Proof.Gen.KernelIdeal.Skeleton
import proofs.«417214_j54812372631768_3_alg».proof.Proof.Gen.KernelIdeal.Launch
import proofs.«417214_j54812372631768_3_alg».proof.Proof.Gen.KernelIdeal.Points
import proofs.«417214_j54812372631768_3_alg».proof.Proof.Gen.KernelIdeal.Frame
import proofs.«417214_j54812372631768_3_alg».proof.Proof.Gen.ReferenceIdeal
import proofs.«417214_j54812372631768_3_alg».proof.Proof.Gen.Pre_finite_inputs
import proofs.«417214_j54812372631768_3_alg».proof.Proof.Gen.KernelIdeal.Value
import proofs.«417214_j54812372631768_3_alg».proof.Proof.Gen.ReferenceIdeal.Run
import proofs.«417214_j54812372631768_3_alg».proof.Proof.Gen.ReferenceIdeal.Read
import proofs.«417214_j54812372631768_3_alg».proof.Proof.RefValue
import proofs.«417214_j54812372631768_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- At the ideal instance the kernel's result array ends at the specification of its arguments (KernelValue's
    `run`) and the reference's at its composed stages, which are the specification of arguments that agree
    (RefValue's `result_eq`). -/
theorem algebraic : Cert.algebraic_KernelIdeal_ReferenceIdeal := by
  intro m ρ m' ρ' _ hagree
  refine ⟨fun c => Cert.SoftmaxDot.result (Cert.KernelIdeal.Whole.sArr m c) (Cert.KernelIdeal.Whole.vArr m c),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.result_eq,
    (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
